-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : FVec F S512x128 .f32) (main_arg2 : FVec F S128 .f32) (main_arg3 : FVec F S128x2 .f32) (main_arg4 : FVec F S2 .f32) (main_arg5 : IVec S1600000 32) (main_arg6 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x512 : Shape := ⟨2, ![2000, 512]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S100000x2 : Shape := ⟨2, ![100000, 2]⟩
abbrev S2000x2 : Shape := ⟨2, ![2000, 2]⟩
abbrev S1600000x2 : Shape := ⟨2, ![1600000, 2]⟩
abbrev S1x2 : Shape := ⟨2, ![1, 2]⟩
abbrev S2000 : Shape := ⟨1, ![2000]⟩

abbrev nBuf : Space → Nat
  | .hbm => 61
  | .vmem => 28
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S1x128, .f32⟩
  | .hbm, ⟨42, _⟩ => ⟨S100000x128, .f32⟩
  | .hbm, ⟨43, _⟩ => ⟨S100000x1, .f32⟩
  | .hbm, ⟨44, _⟩ => ⟨S100000x2, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x2, .f32⟩
  | .hbm, ⟨54, _⟩ => ⟨S_, .f32⟩
  | .hbm, ⟨55, _⟩ => ⟨S100000x2, .f32⟩
  | .hbm, ⟨56, _⟩ => ⟨S1600000x1, .i32⟩
  | .hbm, ⟨57, _⟩ => ⟨S100000x2, .f32⟩
  | .hbm, ⟨58, _⟩ => ⟨S100000x1, .f32⟩
  | .hbm, ⟨59, _⟩ => ⟨S1x2, .f32⟩
  | .hbm, ⟨60, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x2, .f32⟩
  | .local _ .vmem, ⟨17, _⟩ => ⟨S2000x1, .f32⟩
  | .local _ .vmem, ⟨18, _⟩ => ⟨S2000x1, .f32⟩
  | .local _ .vmem, ⟨19, _⟩ => ⟨S2000x2, .f32⟩
  | .local _ .vmem, ⟨20, _⟩ => ⟨S2000x2, .f32⟩
  | .local _ .vmem, ⟨21, _⟩ => ⟨S2000x2, .f32⟩
  | .local _ .vmem, ⟨22, _⟩ => ⟨S2000x2, .f32⟩
  | .local _ .vmem, ⟨23, _⟩ => ⟨S2000x1, .f32⟩
  | .local _ .vmem, ⟨24, _⟩ => ⟨S2000x1, .f32⟩
  | .local _ .vmem, ⟨25, _⟩ => ⟨S1x2, .f32⟩
  | .local _ .vmem, ⟨26, _⟩ => ⟨S2000x2, .f32⟩
  | .local _ .vmem, ⟨27, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S100000_S1600000x1_S1600000_n_0_0_1_wf : ScatterDims.WF S100000 S1600000x1 S1600000 [] [0] [0] 1
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x2_S2000x2_1_0_0_1_n_n_wf : DotDims.WF S2000x128 S128x2 S2000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S100000x2.size a
  hwx2_3 : ∀ i : grid2.Coords, EltTy.bits .f32 = 32 ∨ (Rect.block (s := S100000x2) S2000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x2.size a ≤ S100000x2.size a
  hwx3_3 : ∀ i : grid3.Coords, EltTy.bits .f32 = 32 ∨ (Rect.block (s := S100000x2) S2000x2.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S2000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x2, .f32⟩
  | .hbm, ⟨52, _⟩ => ⟨S100000x1, .f32⟩
  | .hbm, ⟨53, _⟩ => ⟨S100000x2, .f32⟩
  | .hbm, ⟨54, _⟩ => ⟨S100000x2, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x2, .f32⟩
  | .hbm, ⟨64, _⟩ => ⟨S_, .f32⟩
  | .hbm, ⟨65, _⟩ => ⟨S100000x2, .f32⟩
  | .hbm, ⟨66, _⟩ => ⟨S1600000x1, .i32⟩
  | .hbm, ⟨67, _⟩ => ⟨S100000x2, .f32⟩
  | .hbm, ⟨68, _⟩ => ⟨S100000x1, .f32⟩
  | .hbm, ⟨69, _⟩ => ⟨S100000x2, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x2, .f32⟩
  | .hbm, ⟨81, _⟩ => ⟨S100000x2, .f32⟩
  | .hbm, ⟨82, _⟩ => ⟨S100000x2, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S100000x2, .f32⟩
  | .hbm, ⟨87, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.Spec.lean ====
/-
  What a two-layer graph convolution computes, entry by entry, over the extended reals.

  Every dense stage of the network acts on one row of a matrix at a time. Three row-wise functions make up the whole
  network, the sparse aggregation steps between them being the same on both sides of the certificate:
  • a dense layer whose output row p is scaled by a per-row factor s p:
      out (p, c) = (∑ q, x (p, q) · w (q, c)) · s p;
  • an affine map of the aggregated features, a (p, c) · s p + b c, followed by the rectifier max · 0;
  • the same affine map followed by a softmax along the row: with v c = a (p, c) · s p + b c and
    t = max (−∞) (the maximum of the v c folded from −∞), out (p, c) = exp (v c − t) / ∑ j, exp (v j − t).
  The row factor and the bias enter as plain functions of the row and the column: the two programs hold them in
  differently shaped arrays (a column [n, 1] against a vector [n] broadcast twice), and each side reads its own.
  The two float literals are kept as the words both programs print, so neither is ever evaluated.
-/
import Idealize.ShloMosaic.PureOps.Ideal
import Idealize.ShloMosaic.Lib.ValueIdx

noncomputable section

namespace Gcn

open Idealize.ShloMosaic Idealize.ShloMosaic.ValueIdx

variable {n k d : ℕ}

/-- An n × m matrix of extended reals, indexed as the programs' rank-2 arrays are. -/
abbrev Mat (a b : ℕ) : Type := (⟨2, ![a, b]⟩ : Shape).Idx → EReal

/-- The zero the rectifier compares with, as the word both programs print. -/
abbrev zeroWord : EReal := Ideal.ofBits .f32 0x00000000#32

/-- The −∞ the row maximum starts from, as the word both programs print. -/
abbrev bottomWord : EReal := Ideal.ofBits .f32 0xFF800000#32

/-! ## A dense layer with scaled rows -/

/-- Entry (p, c) of x · w, times row p's factor. -/
def scaledDenseAt (x : Mat n k) (w : Mat k d) (s : Fin n → EReal) (p : Fin n) (c : Fin d) : EReal :=
  (∑ q : Fin k, x (ix2 p q) * w (ix2 q c)) * s p

/-- The dense layer with scaled rows, as a matrix. -/
def scaledDense (x : Mat n k) (w : Mat k d) (s : Fin n → EReal) : Mat n d :=
  fun i => scaledDenseAt x w s (i 0) (i 1)

theorem scaledDense_ix2 (x : Mat n k) (w : Mat k d) (s : Fin n → EReal) (p : Fin n) (c : Fin d) :
    scaledDense x w s (ix2 p c) = scaledDenseAt x w s p c := rfl

/-! ## The affine map of the aggregated features, and what follows it -/

/-- Entry (p, c) of the aggregated features times row p's factor, plus column c's bias. -/
def affineAt (a : Mat n d) (s : Fin n → EReal) (b : Fin d → EReal) (p : Fin n) (c : Fin d) : EReal :=
  a (ix2 p c) * s p + b c

/-- The affine map followed by the rectifier. -/
def affineReluAt (a : Mat n d) (s : Fin n → EReal) (b : Fin d → EReal) (p : Fin n) (c : Fin d) : EReal :=
  max (affineAt a s b p c) zeroWord

def affineRelu (a : Mat n d) (s : Fin n → EReal) (b : Fin d → EReal) : Mat n d :=
  fun i => affineReluAt a s b (i 0) (i 1)

theorem affineRelu_ix2 (a : Mat n d) (s : Fin n → EReal) (b : Fin d → EReal) (p : Fin n) (c : Fin d) :
    affineRelu a s b (ix2 p c) = affineReluAt a s b p c := rfl

/-- The number a row's softmax subtracts: the row's maximum folded from −∞, and −∞ once more. -/
def rowTop (v : Fin d → EReal) : EReal :=
  max bottomWord ((Finset.univ : Finset (Fin d)).fold max bottomWord v)

/-- The softmax of one row at column c. -/
def softmaxRow (v : Fin d → EReal) (c : Fin d) : EReal :=
  Ideal.div (Ideal.exp (v c - rowTop v)) (∑ j : Fin d, Ideal.exp (v j - rowTop v))

/-- The affine map followed by the softmax of each row. -/
def affineSoftmaxAt (a : Mat n d) (s : Fin n → EReal) (b : Fin d → EReal) (p : Fin n) (c : Fin d) : EReal :=
  softmaxRow (fun j => affineAt a s b p j) c

def affineSoftmax (a : Mat n d) (s : Fin n → EReal) (b : Fin d → EReal) : Mat n d :=
  fun i => affineSoftmaxAt a s b (i 0) (i 1)

theorem affineSoftmax_ix2 (a : Mat n d) (s : Fin n → EReal) (b : Fin d → EReal) (p : Fin n) (c : Fin d) :
    affineSoftmax a s b (ix2 p c) = affineSoftmaxAt a s b p c := rfl

end Gcn

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.Region0.lean ====
/-
  The first dense region: the feature matrix times the first weight matrix, each row scaled by its factor.

  The region runs over 50 grid points; point t works on rows 2000·t … 2000·t + 1999. Its body multiplies the
  2000 × 512 block of features by the whole 512 × 128 weight matrix into a zero accumulator, which at the ideal
  values is the plain sum over the contracted index, and multiplies row p of the product by the p-th entry of a
  2000 × 1 column of factors. Read at (p, c) the block written back is therefore entry (2000·t + p, c) of
  `Gcn.scaledDense` of the three arrays as the region finds them, and the 50 blocks tile the output array.
-/
import proofs.«109262_j43722767073362_1_alg».proof.Proof.Gen.KernelIdeal.Frame
import proofs.«109262_j43722767073362_1_alg».proof.Proof.Spec
import proofs.«109262_j43722767073362_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's product at an index -/

theorem lhs_axis0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_axis1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_axis0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_axis1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- What the body stores, at (p, c): the p-th row of the feature block against the c-th column of the weights, summed
    over the 512 contracted positions, times the p-th factor. The narrowing of both operands to bf16 is the identity
    at the ideal values, and the accumulator is zero. -/
theorem payload_apply (v0 : S2000x512.Idx → EReal) (v2 : S512x128.Idx → EReal) (v5 : S2000x1.Idx → EReal)
    (p : Fin 2000) (c : Fin 128) :
    k0_pay1 (F := Ideal) v0 v2 v5 (ix2 p c) = (∑ q : Fin 512, v0 (ix2 p q) * v2 (ix2 q c)) * v5 (ix2 p (0 : Fin 1)) := by
  unfold k0_pay1
  refine (mulf_apply _ _ _).trans ?_
  refine congrArg₂ (fun a b : EReal => a * b) ?_ ?_
  · refine (Ideal.matmul_constant_zero_apply dot_S2000x512_S512x128_S2000x128_1_0_0_1_n_n none _ _ (ix2 p c)).trans ?_
    rw [← Equiv.sum_comp (contrEquiv1 dot_S2000x512_S512x128_S2000x128_1_0_0_1_n_n 512 rfl rfl).symm]
    refine Finset.sum_congr rfl fun q _ => ?_
    have hq := contrEquiv1_symm_val dot_S2000x512_S512x128_S2000x128_1_0_0_1_n_n 512 rfl rfl q
    have el : dot_S2000x512_S512x128_S2000x128_1_0_0_1_n_n.lhsIdx (ix2 p c) ((contrEquiv1 dot_S2000x512_S512x128_S2000x128_1_0_0_1_n_n 512 rfl rfl).symm q) = ix2 p q := funext fun a => Fin.ext (by
      match a with
      | ⟨0, _⟩ => exact lhs_axis0 _ _
      | ⟨1, _⟩ => exact (lhs_axis1 _ _).trans hq)
    have er : dot_S2000x512_S512x128_S2000x128_1_0_0_1_n_n.rhsIdx (ix2 p c) ((contrEquiv1 dot_S2000x512_S512x128_S2000x128_1_0_0_1_n_n 512 rfl rfl).symm q) = ix2 q c := funext fun a => Fin.ext (by
      match a with
      | ⟨0, _⟩ => exact (rhs_axis0 _ _).trans hq
      | ⟨1, _⟩ => exact rhs_axis1 _ _)
    rw [el, er]
    rfl
  · refine (RowOps.broadcastTo_a1_ab_apply _ broadcasts_S2000x1_S2000x128 p c).trans ?_
    exact congrFun (shapeCast_self v5 shapeCasts_S2000x1_S2000x1) _

/-- A block of the output against the whole arrays: if the feature block holds rows 2000·b … of the features, the
    weight block is the weight matrix and the factor block holds the same rows of the factor column, then what the
    body stores at (p, c) is entry (2000·b + p, c) of the scaled dense layer. -/
theorem block_apply (x0 : S2000x512.Idx → EReal) (x1 : S512x128.Idx → EReal) (x2 : S2000x1.Idx → EReal)
    (A0 : Gcn.Mat 100000 512) (A1 : Gcn.Mat 512 128) (A2 : Gcn.Mat 100000 1) (b : ℕ) (hb : b ≤ 49)
    (h0 : ∀ (p : Fin 2000) (q : Fin 512), x0 (ix2 p q) = A0 (ix2 (⟨b * 2000 + p.val, by omega⟩ : Fin 100000) q))
    (h1 : ∀ (q : Fin 512) (c : Fin 128), x1 (ix2 q c) = A1 (ix2 q c))
    (h2 : ∀ p : Fin 2000, x2 (ix2 p (0 : Fin 1)) = A2 (ix2 (⟨b * 2000 + p.val, by omega⟩ : Fin 100000) (0 : Fin 1)))
    (p : Fin 2000) (c : Fin 128) :
    k0_pay1 (F := Ideal) x0 x1 x2 (ix2 p c)
      = Gcn.scaledDense A0 A1 (fun r => A2 (ix2 r (0 : Fin 1))) (ix2 (⟨b * 2000 + p.val, by omega⟩ : Fin 100000) c) := by
  rw [payload_apply, Gcn.scaledDense_ix2]
  unfold Gcn.scaledDenseAt
  rw [h2 p]
  exact congrArg (· * _) (Finset.sum_congr rfl fun q _ => by rw [h0 p q, h1 q c])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 50 points: the feature block, the factor block and the output block move
    together down the rows; the weight block stays; no block moves along the columns. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 49 ∧ win0_3.index t (1 : Fin 2) = 0 :=
  (by decide +kernel : ∀ t : Fin grid0.N, _)

/-- Every block of rows is some point's. -/
theorem index_onto : ∀ q0 : Fin 50, ∃ t : Fin cfg0.N, win0_3.index t = ![q0.val, 0] :=
  (by decide +kernel : ∀ q0 : Fin 50, ∃ t : Fin grid0.N, win0_3.index t = ![q0.val, 0])

/-- What point t writes back is block t of the scaled dense layer of the arrays as the region finds them. -/
theorem flushed_eq (c : Dev nD) (t : Fin cfg0.N) :
    (dat0 (F := Ideal) V c).flushed 3 t = ((cfg0.win 3).blk t).view.read (Elt Ideal)
      (Gcn.scaledDense (n := 100000) (k := 512) (d := 128) (V c main_arg0) (V c main_arg1) (fun r => V c main_v13 (ix2 r (0 : Fin 1)))) := by
  show (cfg0.win 3).cut (grid0.coords t) ((dat0 V c).after 3 t) = _
  rw [after0_3]
  unfold out0_3
  rw [View.canon_unit_zero zero_offsets]
  simp only [View.ld_unit_zero (S := S2000x512) zero_offsets, View.ld_unit_zero (S := S512x128) zero_offsets, View.ld_unit_zero (S := S2000x1) zero_offsets]
  obtain ⟨e0, e1, e2, e3, e4, e5, e6, e7⟩ := index_facts t
  funext j
  obtain ⟨p, c', rfl⟩ : ∃ (p : Fin 2000) (c' : Fin 128), j = ix2 p c' := ⟨j 0, j 1, eq_ix2 j⟩
  refine (block_apply (iblk0 V c 0 t) (iblk0 V c 1 t) (iblk0 V c 2 t) (V c main_arg0) (V c main_arg1) (V c main_v13)
    (win0_3.index t (0 : Fin 2)) e6 ?_ ?_ ?_ p c').trans ?_
  · intro p q
    show V c main_arg0 (((cfg0.win 0).blk t).view.emb (ix2 p q)) = _
    refine congrArg (V c main_arg0) (funext fun a => Fin.ext ?_)
    match a with
    | ⟨0, _⟩ => show win0_0.index t (0 : Fin 2) * 2000 + 1 * p.val = win0_3.index t (0 : Fin 2) * 2000 + p.val; omega
    | ⟨1, _⟩ => show win0_0.index t (1 : Fin 2) * 512 + 1 * q.val = q.val; omega
  · intro q c2
    show V c main_arg1 (((cfg0.win 1).blk t).view.emb (ix2 q c2)) = _
    refine congrArg (V c main_arg1) (funext fun a => Fin.ext ?_)
    match a with
    | ⟨0, _⟩ => show win0_1.index t (0 : Fin 2) * 512 + 1 * q.val = q.val; omega
    | ⟨1, _⟩ => show win0_1.index t (1 : Fin 2) * 128 + 1 * c2.val = c2.val; omega
  · intro p
    show V c main_v13 (((cfg0.win 2).blk t).view.emb (ix2 p (0 : Fin 1))) = _
    refine congrArg (V c main_v13) (funext fun a => Fin.ext ?_)
    match a with
    | ⟨0, _⟩ => show win0_2.index t (0 : Fin 2) * 2000 + 1 * p.val = win0_3.index t (0 : Fin 2) * 2000 + p.val; omega
    | ⟨1, _⟩ => show win0_2.index t (1 : Fin 2) * 1 + 1 * 0 = 0; omega
  · show _ = Gcn.scaledDense (n := 100000) (k := 512) (d := 128) (V c main_arg0) (V c main_arg1) (fun r => V c main_v13 (ix2 r (0 : Fin 1))) (((cfg0.win 3).blk t).view.emb (ix2 p c'))
    refine congrArg _ (funext fun a => Fin.ext ?_)
    match a with
    | ⟨0, _⟩ => show win0_3.index t (0 : Fin 2) * 2000 + p.val = win0_3.index t (0 : Fin 2) * 2000 + 1 * p.val; omega
    | ⟨1, _⟩ => show c'.val = win0_3.index t (1 : Fin 2) * 128 + 1 * c'.val; omega

/-- An index of the output array lies in point t's block iff each coordinate lies in the block's range. -/
theorem mem_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v14).slice (win0_3.rect t)).set ↔ _
  rw [View.set_slice_whole, Rect.mem_set_unit]
  exact Iff.rfl

/-- THE ARRAY the region leaves: the scaled dense layer of the arrays as the region finds them. Row r is written by
    point r / 2000. -/
theorem array_eq (c : Dev nD) :
    (dat0 (F := Ideal) V c).arrAt 3 cfg0.N
      = Gcn.scaledDense (n := 100000) (k := 512) (d := 128) (V c main_arg0) (V c main_arg1) (fun r => V c main_v13 (ix2 r (0 : Fin 1))) :=
  (dat0 (F := Ideal) V c).arrAt_eq_of_cover 3 _ (fun t _ => flushed_eq V c t) fun i => by
    have hi0 : (i 0).val < 100000 := (i 0).isLt
    have hi1 : (i 1).val < 128 := (i 1).isLt
    obtain ⟨t, ht⟩ := index_onto ⟨(i 0).val / 2000, by omega⟩
    have q0 : win0_3.index t (0 : Fin 2) = (i 0).val / 2000 := congrFun ht 0
    have q1 : win0_3.index t (1 : Fin 2) = 0 := congrFun ht 1
    refine ⟨t, flush0_3 t, ?_⟩
    rw [mem_block]
    intro a
    match a with
    | ⟨0, _⟩ => show win0_3.index t (0 : Fin 2) * 2000 ≤ (i 0).val ∧ (i 0).val < win0_3.index t (0 : Fin 2) * 2000 + 2000; omega
    | ⟨1, _⟩ => show win0_3.index t (1 : Fin 2) * 128 ≤ (i 1).val ∧ (i 1).val < win0_3.index t (1 : Fin 2) * 128 + 128; omega

end Cert.KernelIdeal.Region0

end
-- ==== Proof.Region1.lean ====
/-
  The first layer's output region: scale the aggregated messages, add the bias, rectify.

  The region runs over 50 grid points; point t works on rows 2000·t … 2000·t + 1999. Its body multiplies row p of
  the 2000 × 128 block of aggregated messages by the p-th entry of a 2000 × 1 column of factors, adds the bias row,
  and takes the maximum with zero. Read at (p, c) the block written back is entry (2000·t + p, c) of
  `Gcn.affineRelu` of the three arrays as the region finds them, and the 50 blocks tile the output array.
-/
import proofs.«109262_j43722767073362_1_alg».proof.Proof.Gen.KernelIdeal.Frame
import proofs.«109262_j43722767073362_1_alg».proof.Proof.Spec
import proofs.«109262_j43722767073362_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value at an index -/

/-- What the body stores, at (p, c): the message entry times the p-th factor, plus the c-th bias, against zero.
    The three views of a block in its own shape move no element; the column of factors is spread along the row and
    the bias row down the column. -/
theorem payload_apply (v0 : S2000x128.Idx → EReal) (v2 : S2000x1.Idx → EReal) (v6 : S1x128.Idx → EReal)
    (p : Fin 2000) (c : Fin 128) :
    k1_pay1 (F := Ideal) v0 v2 v6 (ix2 p c)
      = max (v0 (ix2 p c) * v2 (ix2 p (0 : Fin 1)) + v6 (ix2 (0 : Fin 1) c)) Gcn.zeroWord := by
  unfold k1_pay1
  refine (maximumf_apply _ _ _).trans ?_
  refine congrArg₂ (fun a b : EReal => max a b) ?_ rfl
  refine (addf_apply _ _ _).trans ?_
  refine congrArg₂ (fun a b : EReal => a + b) ?_ ?_
  · refine (mulf_apply _ _ _).trans ?_
    refine congrArg₂ (fun a b : EReal => a * b) ?_ ?_
    · exact congrFun (shapeCast_self v0 shapeCasts_S2000x128_S2000x128) _
    · refine (RowOps.broadcastTo_a1_ab_apply _ broadcasts_S2000x1_S2000x128 p c).trans ?_
      exact congrFun (shapeCast_self v2 shapeCasts_S2000x1_S2000x1) _
  · refine (broadcastTo_1b_ab_apply _ broadcasts_S1x128_S2000x128 p c).trans ?_
    exact congrFun (shapeCast_self v6 shapeCasts_S1x128_S1x128) _

/-- A block of the output against the whole arrays: if the message block holds rows 2000·b … of the messages, the
    factor block the same rows of the factor column, and the bias block is the bias row, then what the body stores
    at (p, c) is entry (2000·b + p, c) of the rectified affine map. -/
theorem block_apply (x0 : S2000x128.Idx → EReal) (x1 : S2000x1.Idx → EReal) (x2 : S1x128.Idx → EReal)
    (A0 : Gcn.Mat 100000 128) (A1 : Gcn.Mat 100000 1) (A2 : Gcn.Mat 1 128) (b : ℕ) (hb : b ≤ 49)
    (h0 : ∀ (p : Fin 2000) (c : Fin 128), x0 (ix2 p c) = A0 (ix2 (⟨b * 2000 + p.val, by omega⟩ : Fin 100000) c))
    (h1 : ∀ p : Fin 2000, x1 (ix2 p (0 : Fin 1)) = A1 (ix2 (⟨b * 2000 + p.val, by omega⟩ : Fin 100000) (0 : Fin 1)))
    (h2 : ∀ c : Fin 128, x2 (ix2 (0 : Fin 1) c) = A2 (ix2 (0 : Fin 1) c))
    (p : Fin 2000) (c : Fin 128) :
    k1_pay1 (F := Ideal) x0 x1 x2 (ix2 p c)
      = Gcn.affineRelu A0 (fun r => A1 (ix2 r (0 : Fin 1))) (fun j => A2 (ix2 (0 : Fin 1) j))
          (ix2 (⟨b * 2000 + p.val, by omega⟩ : Fin 100000) c) := by
  rw [payload_apply, Gcn.affineRelu_ix2]
  unfold Gcn.affineReluAt Gcn.affineAt
  rw [h0 p c, h1 p, h2 c]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 50 points: the message block, the factor block and the output block move
    together down the rows; the bias block stays; no block moves along the columns. -/
theorem index_facts : ∀ t : Fin cfg1.N, win1_0.index t (0 : Fin 2) = win1_3.index t (0 : Fin 2)
    ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 49 ∧ win1_3.index t (1 : Fin 2) = 0 :=
  (by decide +kernel : ∀ t : Fin grid1.N, _)

/-- Every block of rows is some point's. -/
theorem index_onto : ∀ q0 : Fin 50, ∃ t : Fin cfg1.N, win1_3.index t = ![q0.val, 0] :=
  (by decide +kernel : ∀ q0 : Fin 50, ∃ t : Fin grid1.N, win1_3.index t = ![q0.val, 0])

/-- What point t writes back is block t of the rectified affine map of the arrays as the region finds them. -/
theorem flushed_eq (c : Dev nD) (t : Fin cfg1.N) :
    (dat1 (F := Ideal) V c).flushed 3 t = ((cfg1.win 3).blk t).view.read (Elt Ideal)
      (Gcn.affineRelu (n := 100000) (d := 128) (V c main_v24) (fun r => V c main_v25 (ix2 r (0 : Fin 1)))
        (fun j => V c main_v26 (ix2 (0 : Fin 1) j))) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S2000x1) zero_offsets, View.ld_unit_zero (S := S1x128) zero_offsets]
  obtain ⟨e0, e1, e2, e3, e4, e5, e6, e7⟩ := index_facts t
  funext j
  obtain ⟨p, c', rfl⟩ : ∃ (p : Fin 2000) (c' : Fin 128), j = ix2 p c' := ⟨j 0, j 1, eq_ix2 j⟩
  refine (block_apply (iblk1 V c 0 t) (iblk1 V c 1 t) (iblk1 V c 2 t) (V c main_v24) (V c main_v25) (V c main_v26)
    (win1_3.index t (0 : Fin 2)) e6 ?_ ?_ ?_ p c').trans ?_
  · intro p q
    show V c main_v24 (((cfg1.win 0).blk t).view.emb (ix2 p q)) = _
    refine congrArg (V c main_v24) (funext fun a => Fin.ext ?_)
    match a with
    | ⟨0, _⟩ => show win1_0.index t (0 : Fin 2) * 2000 + 1 * p.val = win1_3.index t (0 : Fin 2) * 2000 + p.val; omega
    | ⟨1, _⟩ => show win1_0.index t (1 : Fin 2) * 128 + 1 * q.val = q.val; omega
  · intro p
    show V c main_v25 (((cfg1.win 1).blk t).view.emb (ix2 p (0 : Fin 1))) = _
    refine congrArg (V c main_v25) (funext fun a => Fin.ext ?_)
    match a with
    | ⟨0, _⟩ => show win1_1.index t (0 : Fin 2) * 2000 + 1 * p.val = win1_3.index t (0 : Fin 2) * 2000 + p.val; omega
    | ⟨1, _⟩ => show win1_1.index t (1 : Fin 2) * 1 + 1 * 0 = 0; omega
  · intro q
    show V c main_v26 (((cfg1.win 2).blk t).view.emb (ix2 (0 : Fin 1) q)) = _
    refine congrArg (V c main_v26) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show _ = Gcn.affineRelu (n := 100000) (d := 128) (V c main_v24) (fun r => V c main_v25 (ix2 r (0 : Fin 1)))
        (fun j => V c main_v26 (ix2 (0 : Fin 1) j)) (((cfg1.win 3).blk t).view.emb (ix2 p c'))
    refine congrArg _ (funext fun a => Fin.ext ?_)
    match a with
    | ⟨0, _⟩ => show win1_3.index t (0 : Fin 2) * 2000 + p.val = win1_3.index t (0 : Fin 2) * 2000 + 1 * p.val; omega
    | ⟨1, _⟩ => show c'.val = win1_3.index t (1 : Fin 2) * 128 + 1 * c'.val; omega

/-- An index of the output array lies in point t's block iff each coordinate lies in the block's range. -/
theorem mem_block (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- THE ARRAY the region leaves: the rectified affine map of the arrays as the region finds them. Row r is written
    by point r / 2000. -/
theorem array_eq (c : Dev nD) :
    (dat1 (F := Ideal) V c).arrAt 3 cfg1.N
      = Gcn.affineRelu (n := 100000) (d := 128) (V c main_v24) (fun r => V c main_v25 (ix2 r (0 : Fin 1)))
          (fun j => V c main_v26 (ix2 (0 : Fin 1) j)) :=
  (dat1 (F := Ideal) V c).arrAt_eq_of_cover 3 _ (fun t _ => flushed_eq V c t) fun i => by
    have hi0 : (i 0).val < 100000 := (i 0).isLt
    have hi1 : (i 1).val < 128 := (i 1).isLt
    obtain ⟨t, ht⟩ := index_onto ⟨(i 0).val / 2000, by omega⟩
    have q0 : win1_3.index t (0 : Fin 2) = (i 0).val / 2000 := congrFun ht 0
    have q1 : win1_3.index t (1 : Fin 2) = 0 := congrFun ht 1
    refine ⟨t, flush1_3 t, ?_⟩
    rw [mem_block]
    intro a
    match a with
    | ⟨0, _⟩ => show win1_3.index t (0 : Fin 2) * 2000 ≤ (i 0).val ∧ (i 0).val < win1_3.index t (0 : Fin 2) * 2000 + 2000; omega
    | ⟨1, _⟩ => show win1_3.index t (1 : Fin 2) * 128 ≤ (i 1).val ∧ (i 1).val < win1_3.index t (1 : Fin 2) * 128 + 128; omega

end Cert.KernelIdeal.Region1

end
-- ==== Proof.Region2.lean ====
/-
  The second dense region: the hidden features times the second weight matrix, each row scaled by its factor.

  The region runs over 50 grid points; point t works on rows 2000·t … 2000·t + 1999. Its body multiplies the
  2000 × 128 block of hidden features by the whole 128 × 2 weight matrix into a zero accumulator, which at the ideal
  values is the plain sum over the contracted index, and multiplies row p of the product by the p-th entry of a
  2000 × 1 column of factors. (The body first views its feature block in its own shape, which moves no element.) Read at (p, c) the block written back is therefore entry (2000·t + p, c) of
  `Gcn.scaledDense` of the three arrays as the region finds them, and the 50 blocks tile the output array.
-/
import proofs.«109262_j43722767073362_1_alg».proof.Proof.Gen.KernelIdeal.Frame
import proofs.«109262_j43722767073362_1_alg».proof.Proof.Spec
import proofs.«109262_j43722767073362_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's product at an index -/

theorem lhs_axis0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_axis1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_axis0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_axis1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- What the body stores, at (p, c): the p-th row of the feature block against the c-th column of the weights, summed
    over the 128 contracted positions, times the p-th factor. The narrowing of both operands to bf16 is the identity
    at the ideal values, and the accumulator is zero. -/
theorem payload_apply (v0 : S2000x128.Idx → EReal) (v2 : S128x2.Idx → EReal) (v5 : S2000x1.Idx → EReal)
    (p : Fin 2000) (c : Fin 2) :
    k2_pay1 (F := Ideal) v0 v2 v5 (ix2 p c) = (∑ q : Fin 128, v0 (ix2 p q) * v2 (ix2 q c)) * v5 (ix2 p (0 : Fin 1)) := by
  unfold k2_pay1
  refine (mulf_apply _ _ _).trans ?_
  refine congrArg₂ (fun a b : EReal => a * b) ?_ ?_
  · refine (Ideal.matmul_constant_zero_apply dot_S2000x128_S128x2_S2000x2_1_0_0_1_n_n none _ _ (ix2 p c)).trans ?_
    rw [← Equiv.sum_comp (contrEquiv1 dot_S2000x128_S128x2_S2000x2_1_0_0_1_n_n 128 rfl rfl).symm]
    refine Finset.sum_congr rfl fun q _ => ?_
    have hq := contrEquiv1_symm_val dot_S2000x128_S128x2_S2000x2_1_0_0_1_n_n 128 rfl rfl q
    have el : dot_S2000x128_S128x2_S2000x2_1_0_0_1_n_n.lhsIdx (ix2 p c) ((contrEquiv1 dot_S2000x128_S128x2_S2000x2_1_0_0_1_n_n 128 rfl rfl).symm q) = ix2 p q := funext fun a => Fin.ext (by
      match a with
      | ⟨0, _⟩ => exact lhs_axis0 _ _
      | ⟨1, _⟩ => exact (lhs_axis1 _ _).trans hq)
    have er : dot_S2000x128_S128x2_S2000x2_1_0_0_1_n_n.rhsIdx (ix2 p c) ((contrEquiv1 dot_S2000x128_S128x2_S2000x2_1_0_0_1_n_n 128 rfl rfl).symm q) = ix2 q c := funext fun a => Fin.ext (by
      match a with
      | ⟨0, _⟩ => exact (rhs_axis0 _ _).trans hq
      | ⟨1, _⟩ => exact rhs_axis1 _ _)
    rw [el, er]
    exact congrArg (· * _) (congrFun (shapeCast_self v0 shapeCasts_S2000x128_S2000x128) _)
  · refine (RowOps.broadcastTo_a1_ab_apply _ broadcasts_S2000x1_S2000x2 p c).trans ?_
    exact congrFun (shapeCast_self v5 shapeCasts_S2000x1_S2000x1) _

/-- A block of the output against the whole arrays: if the feature block holds rows 2000·b … of the features, the
    weight block is the weight matrix and the factor block holds the same rows of the factor column, then what the
    body stores at (p, c) is entry (2000·b + p, c) of the scaled dense layer. -/
theorem block_apply (x0 : S2000x128.Idx → EReal) (x1 : S128x2.Idx → EReal) (x2 : S2000x1.Idx → EReal)
    (A0 : Gcn.Mat 100000 128) (A1 : Gcn.Mat 128 2) (A2 : Gcn.Mat 100000 1) (b : ℕ) (hb : b ≤ 49)
    (h0 : ∀ (p : Fin 2000) (q : Fin 128), x0 (ix2 p q) = A0 (ix2 (⟨b * 2000 + p.val, by omega⟩ : Fin 100000) q))
    (h1 : ∀ (q : Fin 128) (c : Fin 2), x1 (ix2 q c) = A1 (ix2 q c))
    (h2 : ∀ p : Fin 2000, x2 (ix2 p (0 : Fin 1)) = A2 (ix2 (⟨b * 2000 + p.val, by omega⟩ : Fin 100000) (0 : Fin 1)))
    (p : Fin 2000) (c : Fin 2) :
    k2_pay1 (F := Ideal) x0 x1 x2 (ix2 p c)
      = Gcn.scaledDense A0 A1 (fun r => A2 (ix2 r (0 : Fin 1))) (ix2 (⟨b * 2000 + p.val, by omega⟩ : Fin 100000) c) := by
  rw [payload_apply, Gcn.scaledDense_ix2]
  unfold Gcn.scaledDenseAt
  rw [h2 p]
  exact congrArg (· * _) (Finset.sum_congr rfl fun q _ => by rw [h0 p q, h1 q c])

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 50 points: the feature block, the factor block and the output block move
    together down the rows; the weight block stays; no block moves along the columns. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) ≤ 49 ∧ win2_3.index t (1 : Fin 2) = 0 :=
  (by decide +kernel : ∀ t : Fin grid2.N, _)

/-- Every block of rows is some point's. -/
theorem index_onto : ∀ q0 : Fin 50, ∃ t : Fin cfg2.N, win2_3.index t = ![q0.val, 0] :=
  (by decide +kernel : ∀ q0 : Fin 50, ∃ t : Fin grid2.N, win2_3.index t = ![q0.val, 0])

/-- What point t writes back is block t of the scaled dense layer of the arrays as the region finds them. -/
theorem flushed_eq (c : Dev nD) (t : Fin cfg2.N) :
    (dat2 (F := Ideal) V c).flushed 3 t = ((cfg2.win 3).blk t).view.read (Elt Ideal)
      (Gcn.scaledDense (n := 100000) (k := 128) (d := 2) (V c main_v27) (V c main_arg3) (fun r => V c main_v28 (ix2 r (0 : Fin 1)))) := by
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S128x2) zero_offsets, View.ld_unit_zero (S := S2000x1) zero_offsets]
  obtain ⟨e0, e1, e2, e3, e4, e5, e6, e7⟩ := index_facts t
  funext j
  obtain ⟨p, c', rfl⟩ : ∃ (p : Fin 2000) (c' : Fin 2), j = ix2 p c' := ⟨j 0, j 1, eq_ix2 j⟩
  refine (block_apply (iblk2 V c 0 t) (iblk2 V c 1 t) (iblk2 V c 2 t) (V c main_v27) (V c main_arg3) (V c main_v28)
    (win2_3.index t (0 : Fin 2)) e6 ?_ ?_ ?_ p c').trans ?_
  · intro p q
    show V c main_v27 (((cfg2.win 0).blk t).view.emb (ix2 p q)) = _
    refine congrArg (V c main_v27) (funext fun a => Fin.ext ?_)
    match a with
    | ⟨0, _⟩ => show win2_0.index t (0 : Fin 2) * 2000 + 1 * p.val = win2_3.index t (0 : Fin 2) * 2000 + p.val; omega
    | ⟨1, _⟩ => show win2_0.index t (1 : Fin 2) * 128 + 1 * q.val = q.val; omega
  · intro q c2
    show V c main_arg3 (((cfg2.win 1).blk t).view.emb (ix2 q c2)) = _
    refine congrArg (V c main_arg3) (funext fun a => Fin.ext ?_)
    match a with
    | ⟨0, _⟩ => show win2_1.index t (0 : Fin 2) * 128 + 1 * q.val = q.val; omega
    | ⟨1, _⟩ => show win2_1.index t (1 : Fin 2) * 2 + 1 * c2.val = c2.val; omega
  · intro p
    show V c main_v28 (((cfg2.win 2).blk t).view.emb (ix2 p (0 : Fin 1))) = _
    refine congrArg (V c main_v28) (funext fun a => Fin.ext ?_)
    match a with
    | ⟨0, _⟩ => show win2_2.index t (0 : Fin 2) * 2000 + 1 * p.val = win2_3.index t (0 : Fin 2) * 2000 + p.val; omega
    | ⟨1, _⟩ => show win2_2.index t (1 : Fin 2) * 1 + 1 * 0 = 0; omega
  · show _ = Gcn.scaledDense (n := 100000) (k := 128) (d := 2) (V c main_v27) (V c main_arg3) (fun r => V c main_v28 (ix2 r (0 : Fin 1))) (((cfg2.win 3).blk t).view.emb (ix2 p c'))
    refine congrArg _ (funext fun a => Fin.ext ?_)
    match a with
    | ⟨0, _⟩ => show win2_3.index t (0 : Fin 2) * 2000 + p.val = win2_3.index t (0 : Fin 2) * 2000 + 1 * p.val; omega
    | ⟨1, _⟩ => show c'.val = win2_3.index t (1 : Fin 2) * 2 + 1 * c'.val; omega

/-- An index of the output array lies in point t's block iff each coordinate lies in the block's range. -/
theorem mem_block (t : Fin cfg2.N) (i : S100000x2.Idx) :
    i ∈ ((cfg2.win 3).blk t).view.set ↔ ∀ a : Fin 2, win2_3.index t a * S2000x2.size a ≤ (i a).val ∧ (i a).val < win2_3.index t a * S2000x2.size a + S2000x2.size a := by
  show i ∈ ((View.whole main_v29).slice (win2_3.rect t)).set ↔ _
  rw [View.set_slice_whole, Rect.mem_set_unit]
  exact Iff.rfl

/-- THE ARRAY the region leaves: the scaled dense layer of the arrays as the region finds them. Row r is written by
    point r / 2000. -/
theorem array_eq (c : Dev nD) :
    (dat2 (F := Ideal) V c).arrAt 3 cfg2.N
      = Gcn.scaledDense (n := 100000) (k := 128) (d := 2) (V c main_v27) (V c main_arg3) (fun r => V c main_v28 (ix2 r (0 : Fin 1))) :=
  (dat2 (F := Ideal) V c).arrAt_eq_of_cover 3 _ (fun t _ => flushed_eq V c t) fun i => by
    have hi0 : (i 0).val < 100000 := (i 0).isLt
    have hi1 : (i 1).val < 2 := (i 1).isLt
    obtain ⟨t, ht⟩ := index_onto ⟨(i 0).val / 2000, by omega⟩
    have q0 : win2_3.index t (0 : Fin 2) = (i 0).val / 2000 := congrFun ht 0
    have q1 : win2_3.index t (1 : Fin 2) = 0 := congrFun ht 1
    refine ⟨t, flush2_3 t, ?_⟩
    rw [mem_block]
    intro a
    match a with
    | ⟨0, _⟩ => show win2_3.index t (0 : Fin 2) * 2000 ≤ (i 0).val ∧ (i 0).val < win2_3.index t (0 : Fin 2) * 2000 + 2000; omega
    | ⟨1, _⟩ => show win2_3.index t (1 : Fin 2) * 2 ≤ (i 1).val ∧ (i 1).val < win2_3.index t (1 : Fin 2) * 2 + 2; omega

end Cert.KernelIdeal.Region2

end
-- ==== Proof.Region3.lean ====
/-
  The result region: scale the aggregated messages, add the bias, take each row's softmax.

  The region runs over 50 grid points; point t works on rows 2000·t … 2000·t + 1999 of a two-column array. Its body
  forms the pre-activations v (p, c) = a (p, c) · s p + b c as the first layer's output region does, then, row by row:
  the maximum of the row folded from −∞ (and −∞ once more), the exponentials of the differences with it, their sum
  folded from zero, and the quotient. The reductions keep their result as a vector over the rows, which is viewed as
  a column and spread back along the row; none of these views moves an element. Read at (p, c) the block written back
  is entry (2000·t + p, c) of `Gcn.affineSoftmax` of the three arrays as the region finds them, and the 50 blocks
  tile the output array.
-/
import proofs.«109262_j43722767073362_1_alg».proof.Proof.Gen.KernelIdeal.Frame
import proofs.«109262_j43722767073362_1_alg».proof.Proof.Spec
import proofs.«109262_j43722767073362_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value at an index -/

/-- The pre-activations as the body builds them: the message block times the column of factors spread along the
    rows, plus the bias row spread down the columns. -/
def preact (v0 : FVec Ideal S2000x2 .f32) (v2 : FVec Ideal S2000x1 .f32) (v6 : FVec Ideal S1x2 .f32) : FVec Ideal S2000x2 .f32 :=
  addf (mulf (shapeCast S2000x2 v0 shapeCasts_S2000x2_S2000x2)
      (broadcastTo S2000x2 (shapeCast S2000x1 v2 shapeCasts_S2000x1_S2000x1) broadcasts_S2000x1_S2000x2))
    (broadcastTo S2000x2 (shapeCast S1x2 v6 shapeCasts_S1x2_S1x2) broadcasts_S1x2_S2000x2)

theorem preact_apply (v0 : FVec Ideal S2000x2 .f32) (v2 : FVec Ideal S2000x1 .f32) (v6 : FVec Ideal S1x2 .f32)
    (p : Fin 2000) (c : Fin 2) :
    preact v0 v2 v6 (ix2 p c) = v0 (ix2 p c) * v2 (ix2 p (0 : Fin 1)) + v6 (ix2 (0 : Fin 1) c) := by
  unfold preact
  refine (addf_apply _ _ _).trans ?_
  refine congrArg₂ (fun a b : EReal => a + b) ?_ ?_
  · refine (mulf_apply _ _ _).trans ?_
    refine congrArg₂ (fun a b : EReal => a * b) ?_ ?_
    · exact congrFun (shapeCast_self v0 shapeCasts_S2000x2_S2000x2) _
    · refine (RowOps.broadcastTo_a1_ab_apply _ broadcasts_S2000x1_S2000x2 p c).trans ?_
      exact congrFun (shapeCast_self v2 shapeCasts_S2000x1_S2000x1) _
  · refine (broadcastTo_1b_ab_apply _ broadcasts_S1x2_S2000x2 p c).trans ?_
    exact congrFun (shapeCast_self v6 shapeCasts_S1x2_S1x2) _

/-- The number each row subtracts, as a vector over the rows: the row's maximum folded from −∞, against −∞. -/
def rowTops (A : FVec Ideal S2000x2 .f32) : FVec Ideal S2000 .f32 :=
  maximumf (broadcast S2000 (Scalar.ofBits .f32 0xFF800000#32))
    (multiReduction .maximumf [1] S2000 A 0xFF800000#32 reduces_S2000x2_S2000 (.inl rfl) rfl)

theorem rowTops_apply (A : FVec Ideal S2000x2 .f32) (p : Fin 2000) :
    rowTops A (ix1 p) = Gcn.rowTop (fun j => A (ix2 p j)) := by
  unfold rowTops Gcn.rowTop
  refine (maximumf_apply _ _ _).trans ?_
  refine congrArg₂ (fun a b : EReal => max a b) rfl ?_
  exact RowOps.multiReduction_max_row A 0xFF800000#32 reduces_S2000x2_S2000 (.inl rfl) rfl p

/-- The exponentials of the differences with the row's number. -/
def shifted (A : FVec Ideal S2000x2 .f32) : FVec Ideal S2000x2 .f32 :=
  exp (subf A (broadcastTo S2000x2 (shapeCast S2000x1 (rowTops A) shapeCasts_S2000_S2000x1) broadcasts_S2000x1_S2000x2))

theorem shifted_apply (A : FVec Ideal S2000x2 .f32) (p : Fin 2000) (c : Fin 2) :
    shifted A (ix2 p c) = Ideal.exp (A (ix2 p c) - Gcn.rowTop (fun j => A (ix2 p j))) := by
  unfold shifted
  show Ideal.exp (A (ix2 p c) - broadcastTo S2000x2 (shapeCast S2000x1 (rowTops A) shapeCasts_S2000_S2000x1) broadcasts_S2000x1_S2000x2 (ix2 p c)) = _
  rw [RowOps.broadcastTo_a1_ab_apply, RowOps.shapeCast_a_a1_apply, rowTops_apply]

/-- The exponentials over their row sums. -/
def normalised (A : FVec Ideal S2000x2 .f32) : FVec Ideal S2000x2 .f32 :=
  divf (shifted A) (broadcastTo S2000x2 (shapeCast S2000x1
    (multiReduction .add [1] S2000 (shifted A) 0x00000000#32 reduces_S2000x2_S2000 (.inl rfl) rfl)
    shapeCasts_S2000_S2000x1) broadcasts_S2000x1_S2000x2)

theorem normalised_apply (A : FVec Ideal S2000x2 .f32) (p : Fin 2000) (c : Fin 2) :
    normalised A (ix2 p c) = Gcn.softmaxRow (fun j => A (ix2 p j)) c := by
  unfold normalised Gcn.softmaxRow
  show Ideal.div (shifted A (ix2 p c)) (broadcastTo S2000x2 (shapeCast S2000x1
    (multiReduction .add [1] S2000 (shifted A) 0x00000000#32 reduces_S2000x2_S2000 (.inl rfl) rfl)
    shapeCasts_S2000_S2000x1) broadcasts_S2000x1_S2000x2 (ix2 p c)) = _
  rw [RowOps.broadcastTo_a1_ab_apply, RowOps.shapeCast_a_a1_apply]
  refine congrArg₂ Ideal.div (shifted_apply A p c) ?_
  refine (RowOps.multiReduction_add_row (shifted A) 0x00000000#32 reduces_S2000x2_S2000 (.inl rfl) rfl p).trans ?_
  exact Finset.sum_congr rfl fun j _ => shifted_apply A p j

/-- The body's stored value is the normalised exponentials of its pre-activations. -/
theorem payload_eq (v0 : FVec Ideal S2000x2 .f32) (v2 : FVec Ideal S2000x1 .f32) (v6 : FVec Ideal S1x2 .f32) :
    k3_pay1 (F := Ideal) v0 v2 v6 = normalised (preact v0 v2 v6) := rfl

/-- What the body stores, at (p, c): the softmax, at column c, of the row of pre-activations. -/
theorem payload_apply (v0 : FVec Ideal S2000x2 .f32) (v2 : FVec Ideal S2000x1 .f32) (v6 : FVec Ideal S1x2 .f32)
    (p : Fin 2000) (c : Fin 2) :
    k3_pay1 (F := Ideal) v0 v2 v6 (ix2 p c)
      = Gcn.softmaxRow (fun j => v0 (ix2 p j) * v2 (ix2 p (0 : Fin 1)) + v6 (ix2 (0 : Fin 1) j)) c := by
  rw [payload_eq, normalised_apply]
  exact congrArg (fun v => Gcn.softmaxRow v c) (funext fun j => preact_apply v0 v2 v6 p j)

/-- A block of the output against the whole arrays: if the message block holds rows 2000·b … of the messages, the
    factor block the same rows of the factor column, and the bias block is the bias row, then what the body stores
    at (p, c) is entry (2000·b + p, c) of the row-wise softmax of the affine map. -/
theorem block_apply (x0 : FVec Ideal S2000x2 .f32) (x1 : FVec Ideal S2000x1 .f32) (x2 : FVec Ideal S1x2 .f32)
    (A0 : Gcn.Mat 100000 2) (A1 : Gcn.Mat 100000 1) (A2 : Gcn.Mat 1 2) (b : ℕ) (hb : b ≤ 49)
    (h0 : ∀ (p : Fin 2000) (c : Fin 2), x0 (ix2 p c) = A0 (ix2 (⟨b * 2000 + p.val, by omega⟩ : Fin 100000) c))
    (h1 : ∀ p : Fin 2000, x1 (ix2 p (0 : Fin 1)) = A1 (ix2 (⟨b * 2000 + p.val, by omega⟩ : Fin 100000) (0 : Fin 1)))
    (h2 : ∀ c : Fin 2, x2 (ix2 (0 : Fin 1) c) = A2 (ix2 (0 : Fin 1) c))
    (p : Fin 2000) (c : Fin 2) :
    k3_pay1 (F := Ideal) x0 x1 x2 (ix2 p c)
      = Gcn.affineSoftmax A0 (fun r => A1 (ix2 r (0 : Fin 1))) (fun j => A2 (ix2 (0 : Fin 1) j))
          (ix2 (⟨b * 2000 + p.val, by omega⟩ : Fin 100000) c) := by
  rw [payload_apply, Gcn.affineSoftmax_ix2]
  unfold Gcn.affineSoftmaxAt Gcn.affineAt
  refine congrArg (fun v => Gcn.softmaxRow v c) (funext fun j => ?_)
  rw [h0 p j, h1 p, h2 j]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 50 points: the message block, the factor block and the output block move
    together down the rows; the bias block stays; no block moves along the columns. -/
theorem index_facts : ∀ t : Fin cfg3.N, win3_0.index t (0 : Fin 2) = win3_3.index t (0 : Fin 2)
    ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) ≤ 49 ∧ win3_3.index t (1 : Fin 2) = 0 :=
  (by decide +kernel : ∀ t : Fin grid3.N, _)

/-- Every block of rows is some point's. -/
theorem index_onto : ∀ q0 : Fin 50, ∃ t : Fin cfg3.N, win3_3.index t = ![q0.val, 0] :=
  (by decide +kernel : ∀ q0 : Fin 50, ∃ t : Fin grid3.N, win3_3.index t = ![q0.val, 0])

/-- What point t writes back is block t of the row-wise softmax of the affine map of the arrays as the region finds
    them. -/
theorem flushed_eq (c : Dev nD) (t : Fin cfg3.N) :
    (dat3 (F := Ideal) V c).flushed 3 t = ((cfg3.win 3).blk t).view.read (Elt Ideal)
      (Gcn.affineSoftmax (n := 100000) (d := 2) (V c main_v39) (fun r => V c main_v40 (ix2 r (0 : Fin 1)))
        (fun j => V c main_v41 (ix2 (0 : Fin 1) j))) := by
  show (cfg3.win 3).cut (grid3.coords t) ((dat3 V c).after 3 t) = _
  rw [after3_3]
  unfold out3_3
  rw [View.canon_unit_zero zero_offsets]
  simp only [View.ld_unit_zero (S := S2000x2) zero_offsets, View.ld_unit_zero (S := S2000x1) zero_offsets, View.ld_unit_zero (S := S1x2) zero_offsets]
  obtain ⟨e0, e1, e2, e3, e4, e5, e6, e7⟩ := index_facts t
  funext j
  obtain ⟨p, c', rfl⟩ : ∃ (p : Fin 2000) (c' : Fin 2), j = ix2 p c' := ⟨j 0, j 1, eq_ix2 j⟩
  refine (block_apply (iblk3 V c 0 t) (iblk3 V c 1 t) (iblk3 V c 2 t) (V c main_v39) (V c main_v40) (V c main_v41)
    (win3_3.index t (0 : Fin 2)) e6 ?_ ?_ ?_ p c').trans ?_
  · intro p q
    show V c main_v39 (((cfg3.win 0).blk t).view.emb (ix2 p q)) = _
    refine congrArg (V c main_v39) (funext fun a => Fin.ext ?_)
    match a with
    | ⟨0, _⟩ => show win3_0.index t (0 : Fin 2) * 2000 + 1 * p.val = win3_3.index t (0 : Fin 2) * 2000 + p.val; omega
    | ⟨1, _⟩ => show win3_0.index t (1 : Fin 2) * 2 + 1 * q.val = q.val; omega
  · intro p
    show V c main_v40 (((cfg3.win 1).blk t).view.emb (ix2 p (0 : Fin 1))) = _
    refine congrArg (V c main_v40) (funext fun a => Fin.ext ?_)
    match a with
    | ⟨0, _⟩ => show win3_1.index t (0 : Fin 2) * 2000 + 1 * p.val = win3_3.index t (0 : Fin 2) * 2000 + p.val; omega
    | ⟨1, _⟩ => show win3_1.index t (1 : Fin 2) * 1 + 1 * 0 = 0; omega
  · intro q
    show V c main_v41 (((cfg3.win 2).blk t).view.emb (ix2 (0 : Fin 1) q)) = _
    refine congrArg (V c main_v41) (funext fun a => Fin.ext ?_)
    match a with
    | ⟨0, _⟩ => show win3_2.index t (0 : Fin 2) * 1 + 1 * 0 = 0; omega
    | ⟨1, _⟩ => show win3_2.index t (1 : Fin 2) * 2 + 1 * q.val = q.val; omega
  · show _ = Gcn.affineSoftmax (n := 100000) (d := 2) (V c main_v39) (fun r => V c main_v40 (ix2 r (0 : Fin 1)))
        (fun j => V c main_v41 (ix2 (0 : Fin 1) j)) (((cfg3.win 3).blk t).view.emb (ix2 p c'))
    refine congrArg _ (funext fun a => Fin.ext ?_)
    match a with
    | ⟨0, _⟩ => show win3_3.index t (0 : Fin 2) * 2000 + p.val = win3_3.index t (0 : Fin 2) * 2000 + 1 * p.val; omega
    | ⟨1, _⟩ => show c'.val = win3_3.index t (1 : Fin 2) * 2 + 1 * c'.val; omega

/-- An index of the output array lies in point t's block iff each coordinate lies in the block's range. -/
theorem mem_block (t : Fin cfg3.N) (i : S100000x2.Idx) :
    i ∈ ((cfg3.win 3).blk t).view.set ↔ ∀ a : Fin 2, win3_3.index t a * S2000x2.size a ≤ (i a).val ∧ (i a).val < win3_3.index t a * S2000x2.size a + S2000x2.size a := by
  show i ∈ ((View.whole main_v42).slice (win3_3.rect t)).set ↔ _
  rw [View.set_slice_whole, Rect.mem_set_unit]
  exact Iff.rfl

/-- THE ARRAY the region leaves: the row-wise softmax of the affine map of the arrays as the region finds them. Row r
    is written by point r / 2000. -/
theorem array_eq (c : Dev nD) :
    (dat3 (F := Ideal) V c).arrAt 3 cfg3.N
      = Gcn.affineSoftmax (n := 100000) (d := 2) (V c main_v39) (fun r => V c main_v40 (ix2 r (0 : Fin 1)))
          (fun j => V c main_v41 (ix2 (0 : Fin 1) j)) :=
  (dat3 (F := Ideal) V c).arrAt_eq_of_cover 3 _ (fun t _ => flushed_eq V c t) fun i => by
    have hi0 : (i 0).val < 100000 := (i 0).isLt
    have hi1 : (i 1).val < 2 := (i 1).isLt
    obtain ⟨t, ht⟩ := index_onto ⟨(i 0).val / 2000, by omega⟩
    have q0 : win3_3.index t (0 : Fin 2) = (i 0).val / 2000 := congrFun ht 0
    have q1 : win3_3.index t (1 : Fin 2) = 0 := congrFun ht 1
    refine ⟨t, flush3_3 t, ?_⟩
    rw [mem_block]
    intro a
    match a with
    | ⟨0, _⟩ => show win3_3.index t (0 : Fin 2) * 2000 ≤ (i 0).val ∧ (i 0).val < win3_3.index t (0 : Fin 2) * 2000 + 2000; omega
    | ⟨1, _⟩ => show win3_3.index t (1 : Fin 2) * 2 ≤ (i 1).val ∧ (i 1).val < win3_3.index t (1 : Fin 2) * 2 + 2; omega

end Cert.KernelIdeal.Region3

end
-- ==== Proof.KernelValue.lean ====
/-
  What the kernel program leaves in its result array, as one closed term of the seven arguments.

  The program is four kernel regions among stretches of host operations. The generated frame names the contents of
  every buffer at each of the nine boundaries between them as a fold from the launch memory: a host stretch applies
  its operations, a region replaces its four arrays by what its write-backs leave. This module walks that fold:
  • the two degree factors (the inverse square roots of the out- and in-degrees, at least one) are computed by the
    first stretch and read again before every region; no later stretch or region writes them, nor any argument;
  • each region's output array is the row-wise function of `Gcn` of the arrays it finds (the four region modules);
  • between the dense and the output region of each layer a stretch gathers the rows of the dense output named by
    the source indices (a negative index counted from the end) and adds them into the rows named by the destination
    indices: the aggregation, kept here as the host operations themselves, since the reference applies the same.
  The factor reaches a region as a column and the bias as a row, views of the vectors that move no element.
-/
import proofs.«109262_j43722767073362_1_alg».proof.Proof.KRun
import proofs.«109262_j43722767073362_1_alg».proof.Proof.Region0
import proofs.«109262_j43722767073362_1_alg».proof.Proof.Region1
import proofs.«109262_j43722767073362_1_alg».proof.Proof.Region2
import proofs.«109262_j43722767073362_1_alg».proof.Proof.Region3
import Idealize.ShloMosaic.Lib.StableHlo.Run
import Idealize.ShloMosaic.Lib.ValueLayout

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem Idealize.ShloMosaic.StableHlo

/-! ## The host chains both programs apply -/

/-- The edge list's type: 1 600 000 indices. -/
abbrev Edges : Type := IVec S1600000 32

/-- The degree factor of every node: count the edges that name it, take at least one, and the inverse square root. -/
def degNorm (e : Edges) : FVec Ideal S100000 .f32 :=
  Host.rsqrt (maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 e)
      (broadcastInDim S1600000 ![] bcast_S_S1600000 (constant S_ .f32 0x3F800000#32)))
    (broadcastInDim S100000 ![] bcast_S_S100000 (constant S_ .f32 0x3F800000#32)))

/-- The source indices as the gather takes them: a negative index has the number of nodes added. -/
def wrapped (e : Edges) : IVec S1600000x1 32 :=
  broadcastInDim S1600000x1 ![0] bcast_S1600000_S1600000x1_0
    (select (cmpi .slt e (broadcastInDim S1600000 ![] bcast_S_S1600000 (constantI S_ 32 0#32)))
      (addi e (broadcastInDim S1600000 ![] bcast_S_S1600000 (constantI S_ 32 100000#32))) e)

/-- The aggregation of 128-wide rows: gather by source, add into zeros by destination. -/
def aggregate128 (h : FVec Ideal S100000x128 .f32) (src dst : Edges) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (wrapped src))

/-- The aggregation of 2-wide rows. -/
def aggregate2 (h : FVec Ideal S100000x2 .f32) (src dst : Edges) : FVec Ideal S100000x2 .f32 :=
  Host.scatterAdd scatter_S100000x2_S1600000x1_S1600000x2_1_0_0_1
    (broadcastInDim S100000x2 ![] bcast_S_S100000x2 (constant S_ .f32 0x00000000#32))
    (broadcastInDim S1600000x1 ![0] bcast_S1600000_S1600000x1_0 dst)
    (Host.gather gather_S100000x2_S1600000x1_S1600000x2_1_0_n_n_0_1_12 h (wrapped src))

/-- The first layer: dense, aggregate, affine, rectify. -/
def hidden (x0 : FVec Ideal S100000x512 .f32) (x1 : FVec Ideal S512x128 .f32)
    (x2 : FVec Ideal S128 .f32) (x5 x6 : Edges) : Gcn.Mat 100000 128 :=
  Gcn.affineRelu (n := 100000) (d := 128)
    (aggregate128 (Gcn.scaledDense (n := 100000) (k := 512) (d := 128) x0 x1 (fun r => degNorm x5 (ix1 r))) x5 x6)
    (fun r => degNorm x6 (ix1 r)) (fun j => x2 (ix1 j))

/-- The whole network: the second layer over the first, ending in the row-wise softmax. -/
def network (x0 : FVec Ideal S100000x512 .f32) (x1 : FVec Ideal S512x128 .f32)
    (x2 : FVec Ideal S128 .f32) (x3 : FVec Ideal S128x2 .f32)
    (x4 : FVec Ideal S2 .f32) (x5 x6 : Edges) : Gcn.Mat 100000 2 :=
  Gcn.affineSoftmax (n := 100000) (d := 2)
    (aggregate2 (Gcn.scaledDense (n := 100000) (k := 128) (d := 2) (hidden x0 x1 x2 x5 x6) x3 (fun r => degNorm x5 (ix1 r))) x5 x6)
    (fun r => degNorm x6 (ix1 r)) (fun j => x4 (ix1 j))

/-! ## The buffers no later step writes, at each boundary -/

variable (m : (ℓ : Loc nD τ sig) → Buf (Elt Ideal) ℓ) (ρ : Dev nD → PrngReg)

/-! ### After the first host stretch -/
theorem at1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem at1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem at1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem at1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem at1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem at1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem at1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem at1_v9 (c : Dev nD) : W1 m ρ c (Proc.devRef .tc main_v9) = degNorm (m ((c : Thread nD τ).loc main_arg5)) := by
  show StableHlo.after hostOps0 (W0 m ρ c) (Proc.devRef .tc main_v9) = _
  after_results <;> rfl
theorem at1_v12 (c : Dev nD) : W1 m ρ c (Proc.devRef .tc main_v12) = degNorm (m ((c : Thread nD τ).loc main_arg6)) := by
  show StableHlo.after hostOps0 (W0 m ρ c) (Proc.devRef .tc main_v12) = _
  after_results <;> rfl
/-- The source factor as the first region's column. -/
theorem at1_v13 (c : Dev nD) :
    W1 m ρ c (Proc.devRef .tc main_v13) = shapeCast S100000x1 (degNorm (m ((c : Thread nD τ).loc main_arg5))) shapeCasts_S100000_S100000x1 := by
  show StableHlo.after hostOps0 (W0 m ρ c) (Proc.devRef .tc main_v13) = _
  after_results <;> rfl

/-! ### After the first region: it writes its own four arrays only -/
theorem at2_arg2 (c : Dev nD) : W2 m ρ c (Proc.devRef .tc main_arg2) = m ((c : Thread nD τ).loc main_arg2) :=
  (W2_of_ne m ρ c main_arg2 (by decide)).trans (at1_arg2 m ρ c)
theorem at2_arg3 (c : Dev nD) : W2 m ρ c (Proc.devRef .tc main_arg3) = m ((c : Thread nD τ).loc main_arg3) :=
  (W2_of_ne m ρ c main_arg3 (by decide)).trans (at1_arg3 m ρ c)
theorem at2_arg4 (c : Dev nD) : W2 m ρ c (Proc.devRef .tc main_arg4) = m ((c : Thread nD τ).loc main_arg4) :=
  (W2_of_ne m ρ c main_arg4 (by decide)).trans (at1_arg4 m ρ c)
theorem at2_arg5 (c : Dev nD) : W2 m ρ c (Proc.devRef .tc main_arg5) = m ((c : Thread nD τ).loc main_arg5) :=
  (W2_of_ne m ρ c main_arg5 (by decide)).trans (at1_arg5 m ρ c)
theorem at2_arg6 (c : Dev nD) : W2 m ρ c (Proc.devRef .tc main_arg6) = m ((c : Thread nD τ).loc main_arg6) :=
  (W2_of_ne m ρ c main_arg6 (by decide)).trans (at1_arg6 m ρ c)
theorem at2_v9 (c : Dev nD) : W2 m ρ c (Proc.devRef .tc main_v9) = degNorm (m ((c : Thread nD τ).loc main_arg5)) :=
  (W2_of_ne m ρ c main_v9 (by decide)).trans (at1_v9 m ρ c)
theorem at2_v12 (c : Dev nD) : W2 m ρ c (Proc.devRef .tc main_v12) = degNorm (m ((c : Thread nD τ).loc main_arg6)) :=
  (W2_of_ne m ρ c main_v12 (by decide)).trans (at1_v12 m ρ c)

/-- The first region's output: the first dense layer with rows scaled by the source factor. -/
theorem at2_v14 (c : Dev nD) :
    W2 m ρ c (Proc.devRef .tc main_v14)
      = Gcn.scaledDense (n := 100000) (k := 512) (d := 128) (m ((c : Thread nD τ).loc main_arg0)) (m ((c : Thread nD τ).loc main_arg1))
          (fun r => degNorm (m ((c : Thread nD τ).loc main_arg5)) (ix1 r)) := by
  refine (W2_arr m ρ c 3).trans ((Region0.array_eq (V1 m ρ) c).trans ?_)
  have h0 : V1 m ρ c main_arg0 = m ((c : Thread nD τ).loc main_arg0) := at1_arg0 m ρ c
  have h1 : V1 m ρ c main_arg1 = m ((c : Thread nD τ).loc main_arg1) := at1_arg1 m ρ c
  have h2 : (fun r : Fin 100000 => V1 m ρ c main_v13 (ix2 r (0 : Fin 1))) = fun r => degNorm (m ((c : Thread nD τ).loc main_arg5)) (ix1 r) :=
    funext fun r => by
      rw [show V1 m ρ c main_v13 = shapeCast S100000x1 (degNorm (m ((c : Thread nD τ).loc main_arg5))) shapeCasts_S100000_S100000x1 from at1_v13 m ρ c]
      exact RowOps.shapeCast_a_a1_apply _ _ r 0
  rw [h0, h1, h2]

/-! ### After the second host stretch: the aggregated messages, the destination factor's column, the bias row -/
theorem at3_arg3 (c : Dev nD) : W3 m ρ c (Proc.devRef .tc main_arg3) = m ((c : Thread nD τ).loc main_arg3) := by
  show StableHlo.after hostOps1 (W2 m ρ c) (Proc.devRef .tc main_arg3) = _
  after_results
  exact at2_arg3 m ρ c
theorem at3_arg4 (c : Dev nD) : W3 m ρ c (Proc.devRef .tc main_arg4) = m ((c : Thread nD τ).loc main_arg4) := by
  show StableHlo.after hostOps1 (W2 m ρ c) (Proc.devRef .tc main_arg4) = _
  after_results
  exact at2_arg4 m ρ c
theorem at3_arg5 (c : Dev nD) : W3 m ρ c (Proc.devRef .tc main_arg5) = m ((c : Thread nD τ).loc main_arg5) := by
  show StableHlo.after hostOps1 (W2 m ρ c) (Proc.devRef .tc main_arg5) = _
  after_results
  exact at2_arg5 m ρ c
theorem at3_arg6 (c : Dev nD) : W3 m ρ c (Proc.devRef .tc main_arg6) = m ((c : Thread nD τ).loc main_arg6) := by
  show StableHlo.after hostOps1 (W2 m ρ c) (Proc.devRef .tc main_arg6) = _
  after_results
  exact at2_arg6 m ρ c
theorem at3_v9 (c : Dev nD) : W3 m ρ c (Proc.devRef .tc main_v9) = degNorm (m ((c : Thread nD τ).loc main_arg5)) := by
  show StableHlo.after hostOps1 (W2 m ρ c) (Proc.devRef .tc main_v9) = _
  after_results
  exact at2_v9 m ρ c
theorem at3_v12 (c : Dev nD) : W3 m ρ c (Proc.devRef .tc main_v12) = degNorm (m ((c : Thread nD τ).loc main_arg6)) := by
  show StableHlo.after hostOps1 (W2 m ρ c) (Proc.devRef .tc main_v12) = _
  after_results
  exact at2_v12 m ρ c
theorem at3_v24 (c : Dev nD) :
    W3 m ρ c (Proc.devRef .tc main_v24)
      = aggregate128 (Gcn.scaledDense (n := 100000) (k := 512) (d := 128) (m ((c : Thread nD τ).loc main_arg0)) (m ((c : Thread nD τ).loc main_arg1))
          (fun r => degNorm (m ((c : Thread nD τ).loc main_arg5)) (ix1 r))) (m ((c : Thread nD τ).loc main_arg5)) (m ((c : Thread nD τ).loc main_arg6)) := by
  show StableHlo.after hostOps1 (W2 m ρ c) (Proc.devRef .tc main_v24) = _
  after_results
  rw [at2_arg6, at2_v14, at2_arg5]
  rfl
theorem at3_v25 (c : Dev nD) :
    W3 m ρ c (Proc.devRef .tc main_v25) = shapeCast S100000x1 (degNorm (m ((c : Thread nD τ).loc main_arg6))) shapeCasts_S100000_S100000x1 := by
  show StableHlo.after hostOps1 (W2 m ρ c) (Proc.devRef .tc main_v25) = _
  after_results
  rw [at2_v12]
  rfl
theorem at3_v26 (c : Dev nD) :
    W3 m ρ c (Proc.devRef .tc main_v26) = shapeCast S1x128 (m ((c : Thread nD τ).loc main_arg2)) shapeCasts_S128_S1x128 := by
  show StableHlo.after hostOps1 (W2 m ρ c) (Proc.devRef .tc main_v26) = _
  after_results
  rw [at2_arg2]
  rfl

/-! ### After the second region -/
theorem at4_arg3 (c : Dev nD) : W4 m ρ c (Proc.devRef .tc main_arg3) = m ((c : Thread nD τ).loc main_arg3) :=
  (W4_of_ne m ρ c main_arg3 (by decide)).trans (at3_arg3 m ρ c)
theorem at4_arg4 (c : Dev nD) : W4 m ρ c (Proc.devRef .tc main_arg4) = m ((c : Thread nD τ).loc main_arg4) :=
  (W4_of_ne m ρ c main_arg4 (by decide)).trans (at3_arg4 m ρ c)
theorem at4_arg5 (c : Dev nD) : W4 m ρ c (Proc.devRef .tc main_arg5) = m ((c : Thread nD τ).loc main_arg5) :=
  (W4_of_ne m ρ c main_arg5 (by decide)).trans (at3_arg5 m ρ c)
theorem at4_arg6 (c : Dev nD) : W4 m ρ c (Proc.devRef .tc main_arg6) = m ((c : Thread nD τ).loc main_arg6) :=
  (W4_of_ne m ρ c main_arg6 (by decide)).trans (at3_arg6 m ρ c)
theorem at4_v9 (c : Dev nD) : W4 m ρ c (Proc.devRef .tc main_v9) = degNorm (m ((c : Thread nD τ).loc main_arg5)) :=
  (W4_of_ne m ρ c main_v9 (by decide)).trans (at3_v9 m ρ c)
theorem at4_v12 (c : Dev nD) : W4 m ρ c (Proc.devRef .tc main_v12) = degNorm (m ((c : Thread nD τ).loc main_arg6)) :=
  (W4_of_ne m ρ c main_v12 (by decide)).trans (at3_v12 m ρ c)

/-- The second region's output: the first layer's hidden features. -/
theorem at4_v27 (c : Dev nD) :
    W4 m ρ c (Proc.devRef .tc main_v27)
      = hidden (m ((c : Thread nD τ).loc main_arg0)) (m ((c : Thread nD τ).loc main_arg1)) (m ((c : Thread nD τ).loc main_arg2)) (m ((c : Thread nD τ).loc main_arg5)) (m ((c : Thread nD τ).loc main_arg6)) := by
  refine (W4_arr m ρ c 3).trans ((Region1.array_eq (V3 m ρ) c).trans ?_)
  have h0 : V3 m ρ c main_v24 = _ := at3_v24 m ρ c
  have h1 : (fun r : Fin 100000 => V3 m ρ c main_v25 (ix2 r (0 : Fin 1))) = fun r => degNorm (m ((c : Thread nD τ).loc main_arg6)) (ix1 r) :=
    funext fun r => by
      rw [show V3 m ρ c main_v25 = shapeCast S100000x1 (degNorm (m ((c : Thread nD τ).loc main_arg6))) shapeCasts_S100000_S100000x1 from at3_v25 m ρ c]
      exact RowOps.shapeCast_a_a1_apply _ _ r 0
  have h2 : (fun j : Fin 128 => V3 m ρ c main_v26 (ix2 (0 : Fin 1) j)) = fun j => (m ((c : Thread nD τ).loc main_arg2)) (ix1 j) :=
    funext fun j => by
      rw [show V3 m ρ c main_v26 = shapeCast S1x128 (m ((c : Thread nD τ).loc main_arg2)) shapeCasts_S128_S1x128 from at3_v26 m ρ c]
      exact shapeCast_a_1a_apply _ _ 0 j
  rw [h0, h1, h2]
  rfl

/-! ### After the third host stretch: the source factor's column again -/
theorem at5_arg3 (c : Dev nD) : W5 m ρ c (Proc.devRef .tc main_arg3) = m ((c : Thread nD τ).loc main_arg3) := by
  show StableHlo.after hostOps2 (W4 m ρ c) (Proc.devRef .tc main_arg3) = _
  after_results
  exact at4_arg3 m ρ c
theorem at5_arg4 (c : Dev nD) : W5 m ρ c (Proc.devRef .tc main_arg4) = m ((c : Thread nD τ).loc main_arg4) := by
  show StableHlo.after hostOps2 (W4 m ρ c) (Proc.devRef .tc main_arg4) = _
  after_results
  exact at4_arg4 m ρ c
theorem at5_arg5 (c : Dev nD) : W5 m ρ c (Proc.devRef .tc main_arg5) = m ((c : Thread nD τ).loc main_arg5) := by
  show StableHlo.after hostOps2 (W4 m ρ c) (Proc.devRef .tc main_arg5) = _
  after_results
  exact at4_arg5 m ρ c
theorem at5_arg6 (c : Dev nD) : W5 m ρ c (Proc.devRef .tc main_arg6) = m ((c : Thread nD τ).loc main_arg6) := by
  show StableHlo.after hostOps2 (W4 m ρ c) (Proc.devRef .tc main_arg6) = _
  after_results
  exact at4_arg6 m ρ c
theorem at5_v12 (c : Dev nD) : W5 m ρ c (Proc.devRef .tc main_v12) = degNorm (m ((c : Thread nD τ).loc main_arg6)) := by
  show StableHlo.after hostOps2 (W4 m ρ c) (Proc.devRef .tc main_v12) = _
  after_results
  exact at4_v12 m ρ c
theorem at5_v27 (c : Dev nD) :
    W5 m ρ c (Proc.devRef .tc main_v27)
      = hidden (m ((c : Thread nD τ).loc main_arg0)) (m ((c : Thread nD τ).loc main_arg1)) (m ((c : Thread nD τ).loc main_arg2)) (m ((c : Thread nD τ).loc main_arg5)) (m ((c : Thread nD τ).loc main_arg6)) := by
  show StableHlo.after hostOps2 (W4 m ρ c) (Proc.devRef .tc main_v27) = _
  after_results
  exact at4_v27 m ρ c
theorem at5_v28 (c : Dev nD) :
    W5 m ρ c (Proc.devRef .tc main_v28) = shapeCast S100000x1 (degNorm (m ((c : Thread nD τ).loc main_arg5))) shapeCasts_S100000_S100000x1 := by
  show StableHlo.after hostOps2 (W4 m ρ c) (Proc.devRef .tc main_v28) = _
  after_results
  rw [at4_v9]
  rfl

/-! ### After the third region -/
theorem at6_arg4 (c : Dev nD) : W6 m ρ c (Proc.devRef .tc main_arg4) = m ((c : Thread nD τ).loc main_arg4) :=
  (W6_of_ne m ρ c main_arg4 (by decide)).trans (at5_arg4 m ρ c)
theorem at6_arg5 (c : Dev nD) : W6 m ρ c (Proc.devRef .tc main_arg5) = m ((c : Thread nD τ).loc main_arg5) :=
  (W6_of_ne m ρ c main_arg5 (by decide)).trans (at5_arg5 m ρ c)
theorem at6_arg6 (c : Dev nD) : W6 m ρ c (Proc.devRef .tc main_arg6) = m ((c : Thread nD τ).loc main_arg6) :=
  (W6_of_ne m ρ c main_arg6 (by decide)).trans (at5_arg6 m ρ c)
theorem at6_v12 (c : Dev nD) : W6 m ρ c (Proc.devRef .tc main_v12) = degNorm (m ((c : Thread nD τ).loc main_arg6)) :=
  (W6_of_ne m ρ c main_v12 (by decide)).trans (at5_v12 m ρ c)

/-- The third region's output: the second dense layer with rows scaled by the source factor. -/
theorem at6_v29 (c : Dev nD) :
    W6 m ρ c (Proc.devRef .tc main_v29)
      = Gcn.scaledDense (n := 100000) (k := 128) (d := 2)
          (hidden (m ((c : Thread nD τ).loc main_arg0)) (m ((c : Thread nD τ).loc main_arg1)) (m ((c : Thread nD τ).loc main_arg2)) (m ((c : Thread nD τ).loc main_arg5)) (m ((c : Thread nD τ).loc main_arg6)))
          (m ((c : Thread nD τ).loc main_arg3)) (fun r => degNorm (m ((c : Thread nD τ).loc main_arg5)) (ix1 r)) := by
  refine (W6_arr m ρ c 3).trans ((Region2.array_eq (V5 m ρ) c).trans ?_)
  have h0 : V5 m ρ c main_v27 = _ := at5_v27 m ρ c
  have h1 : V5 m ρ c main_arg3 = m ((c : Thread nD τ).loc main_arg3) := at5_arg3 m ρ c
  have h2 : (fun r : Fin 100000 => V5 m ρ c main_v28 (ix2 r (0 : Fin 1))) = fun r => degNorm (m ((c : Thread nD τ).loc main_arg5)) (ix1 r) :=
    funext fun r => by
      rw [show V5 m ρ c main_v28 = shapeCast S100000x1 (degNorm (m ((c : Thread nD τ).loc main_arg5))) shapeCasts_S100000_S100000x1 from at5_v28 m ρ c]
      exact RowOps.shapeCast_a_a1_apply _ _ r 0
  rw [h0, h1, h2]

/-! ### After the fourth host stretch -/

/-- The fourth stretch's aggregation, over any contents it may start from: it reads the third region's output and
    the two index arrays, and nothing else. -/
theorem lastStretch_v39 (W : Valuation τ sig (Elt Ideal)) :
    StableHlo.after hostOps3 W (Proc.devRef .tc main_v39)
      = aggregate2 (W (Proc.devRef .tc main_v29)) (W (Proc.devRef .tc main_arg5)) (W (Proc.devRef .tc main_arg6)) := by
  after_results <;> rfl

theorem at7_v39 (c : Dev nD) :
    W7 m ρ c (Proc.devRef .tc main_v39)
      = aggregate2 (Gcn.scaledDense (n := 100000) (k := 128) (d := 2)
          (hidden (m ((c : Thread nD τ).loc main_arg0)) (m ((c : Thread nD τ).loc main_arg1)) (m ((c : Thread nD τ).loc main_arg2)) (m ((c : Thread nD τ).loc main_arg5)) (m ((c : Thread nD τ).loc main_arg6)))
          (m ((c : Thread nD τ).loc main_arg3)) (fun r => degNorm (m ((c : Thread nD τ).loc main_arg5)) (ix1 r))) (m ((c : Thread nD τ).loc main_arg5)) (m ((c : Thread nD τ).loc main_arg6)) := by
  refine (lastStretch_v39 (W6 m ρ c)).trans ?_
  rw [at6_arg6, at6_v29, at6_arg5]
theorem at7_v40 (c : Dev nD) :
    W7 m ρ c (Proc.devRef .tc main_v40) = shapeCast S100000x1 (degNorm (m ((c : Thread nD τ).loc main_arg6))) shapeCasts_S100000_S100000x1 := by
  show StableHlo.after hostOps3 (W6 m ρ c) (Proc.devRef .tc main_v40) = _
  after_results
  rw [at6_v12]
  rfl
theorem at7_v41 (c : Dev nD) :
    W7 m ρ c (Proc.devRef .tc main_v41) = shapeCast S1x2 (m ((c : Thread nD τ).loc main_arg4)) shapeCasts_S2_S1x2 := by
  show StableHlo.after hostOps3 (W6 m ρ c) (Proc.devRef .tc main_v41) = _
  after_results
  rw [at6_arg4]
  rfl

/-! ## The result -/

/-- THE RESULT ARRAY after the run: the network of the seven arguments. -/
theorem result_eq (c : Dev nD) :
    W8 m ρ c (Proc.devRef .tc main_v42)
      = network (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) := by
  refine (W8_arr m ρ c 3).trans ((Region3.array_eq (V7 m ρ) c).trans ?_)
  have h0 : V7 m ρ c main_v39 = _ := at7_v39 m ρ c
  have h1 : (fun r : Fin 100000 => V7 m ρ c main_v40 (ix2 r (0 : Fin 1))) = fun r => degNorm (m ((c : Thread nD τ).loc main_arg6)) (ix1 r) :=
    funext fun r => by
      rw [show V7 m ρ c main_v40 = shapeCast S100000x1 (degNorm (m ((c : Thread nD τ).loc main_arg6))) shapeCasts_S100000_S100000x1 from at7_v40 m ρ c]
      exact RowOps.shapeCast_a_a1_apply _ _ r 0
  have h2 : (fun j : Fin 2 => V7 m ρ c main_v41 (ix2 (0 : Fin 1) j)) = fun j => (m ((c : Thread nD τ).loc main_arg4)) (ix1 j) :=
    funext fun j => by
      rw [show V7 m ρ c main_v41 = shapeCast S1x2 (m ((c : Thread nD τ).loc main_arg4)) shapeCasts_S2_S1x2 from at7_v41 m ρ c]
      exact shapeCast_a_1a_apply _ _ 0 j
  rw [h0, h1, h2]
  rfl

/-- The run of the kernel program, read: it terminates without a fault with the network of the arguments in its
    result array and the arguments as launched. -/
theorem run : θ_run defs (onTc (τ := τ) (main (F := Ideal))) ⟨m, fun _ => 0, ρ⟩ (fun r => ∀ c : Dev nD,
      r.2.mem ((c.tc : Thread nD τ).loc main_v42)
        = network (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩)
    (RunValue.run_result (F := Ideal) m ρ)

end Cert.KernelIdeal.KVal

end
-- ==== Proof.RefStages.lean ====
/-
  The reference program, read one dense stage at a time.

  Between its sparse aggregation steps the reference computes, with whole-array host operations, the same three
  row-wise functions the kernel computes block by block: a dense layer whose rows are scaled by the inverse square
  root of the out-degree; the affine map (scale by the inverse square root of the in-degree, add the bias) followed
  by the rectifier; and the same affine map followed by a softmax of each row. Each theorem below reads the chain of
  host operations of one stage at an index and finds the corresponding function of the specification, applied to
  the stage before it.
-/
import proofs.«109262_j43722767073362_1_alg».proof.Proof.Gen.ReferenceIdeal.Run
import proofs.«109262_j43722767073362_1_alg».proof.Proof.Gen.ReferenceIdeal.Read
import proofs.«109262_j43722767073362_1_alg».proof.Proof.Spec
import proofs.«109262_j43722767073362_1_alg».proof.Proof.LibRowOps

noncomputable section

namespace Cert.ReferenceIdeal.RefValue

open Cert.ReferenceIdeal Cert.ReferenceIdeal.Gen Cert.ReferenceIdeal.Read
open Idealize.ShloMosaic Idealize.ShloMosaic.ValueIdx

variable (x0 : (⟨S100000x512, .f32⟩ : BufTy).Contents (Elt Ideal)) (x1 : (⟨S512x128, .f32⟩ : BufTy).Contents (Elt Ideal)) (x2 : (⟨S128, .f32⟩ : BufTy).Contents (Elt Ideal)) (x3 : (⟨S128x2, .f32⟩ : BufTy).Contents (Elt Ideal)) (x4 : (⟨S2, .f32⟩ : BufTy).Contents (Elt Ideal)) (x5 : (⟨S1600000, .i32⟩ : BufTy).Contents (Elt Ideal)) (x6 : (⟨S1600000, .i32⟩ : BufTy).Contents (Elt Ideal))

/-! ## The index functions of the dense stages, at a pair of coordinates -/

theorem lidx13_ix2 (p : Fin 100000) (c : Fin 128) (k : Fin 512) : lidx_main_v13 (ix2 p c) k = ix2 p k :=
  funext fun a => Fin.ext (by match a with | ⟨0, _⟩ => rfl | ⟨1, _⟩ => rfl)

theorem ridx13_ix2 (p : Fin 100000) (c : Fin 128) (k : Fin 512) : ridx_main_v13 (ix2 p c) k = ix2 k c :=
  funext fun a => Fin.ext (by match a with | ⟨0, _⟩ => rfl | ⟨1, _⟩ => rfl)

/-- The source factor, broadcast as a column and then over the row, is read at the row's coordinate. -/
theorem idx14_15_ix2 (p : Fin 100000) (c : Fin 128) : idx_main_v14 (idx_main_v15 (ix2 p c)) = ix1 p :=
  funext fun a => Fin.ext (by match a with | ⟨0, _⟩ => rfl)

theorem lidx34_ix2 (p : Fin 100000) (c : Fin 2) (k : Fin 128) : lidx_main_v34 (ix2 p c) k = ix2 p k :=
  funext fun a => Fin.ext (by match a with | ⟨0, _⟩ => rfl | ⟨1, _⟩ => rfl)

theorem ridx34_ix2 (p : Fin 100000) (c : Fin 2) (k : Fin 128) : ridx_main_v34 (ix2 p c) k = ix2 k c :=
  funext fun a => Fin.ext (by match a with | ⟨0, _⟩ => rfl | ⟨1, _⟩ => rfl)

theorem idx35_36_ix2 (p : Fin 100000) (c : Fin 2) : idx_main_v35 (idx_main_v36 (ix2 p c)) = ix1 p :=
  funext fun a => Fin.ext (by match a with | ⟨0, _⟩ => rfl)

/-- The destination factor, broadcast as a column and then over the row, is read at the row's coordinate. -/
theorem idx27_28_ix2 (p : Fin 100000) (c : Fin 128) : idx_main_v27 (idx_main_v28 (ix2 p c)) = ix1 p :=
  funext fun a => Fin.ext (by match a with | ⟨0, _⟩ => rfl)

/-- The bias, broadcast as a row and then over the column, is read at the column's coordinate. -/
theorem idx30_31_ix2 (p : Fin 100000) (c : Fin 128) : idx_main_v30 (idx_main_v31 (ix2 p c)) = ix1 c :=
  funext fun a => Fin.ext (by match a with | ⟨0, _⟩ => rfl)

/-! ## The last stage, one host operation after another -/

theorem idx48_49_ix2 (p : Fin 100000) (c : Fin 2) : idx_main_v48 (idx_main_v49 (ix2 p c)) = ix1 p :=
  funext fun a => Fin.ext (by match a with | ⟨0, _⟩ => rfl)

theorem idx51_52_ix2 (p : Fin 100000) (c : Fin 2) : idx_main_v51 (idx_main_v52 (ix2 p c)) = ix1 c :=
  funext fun a => Fin.ext (by match a with | ⟨0, _⟩ => rfl)

theorem idx57_58_ix2 (p : Fin 100000) (c : Fin 2) : idx_main_v57 (idx_main_v58 (ix2 p c)) = ix1 p :=
  funext fun a => Fin.ext (by match a with | ⟨0, _⟩ => rfl)

theorem idx62_63_ix2 (p : Fin 100000) (c : Fin 2) : idx_main_v62 (idx_main_v63 (ix2 p c)) = ix1 p :=
  funext fun a => Fin.ext (by match a with | ⟨0, _⟩ => rfl)

theorem idx61_ix1 (p : Fin 100000) (k : Fin 2) : idx_main_v61 (ix1 p) k = ix2 p k :=
  funext fun a => Fin.ext (by match a with | ⟨0, _⟩ => rfl | ⟨1, _⟩ => rfl)

/-- The affine map of the second layer's aggregated messages, at (p, c). -/
theorem v53_ix2 (p : Fin 100000) (c : Fin 2) :
    val_main_v53 (F := Ideal) x0 x1 x2 x3 x4 x5 x6 (ix2 p c)
      = Gcn.affineAt (n := 100000) (d := 2) (val_main_v47 (F := Ideal) x0 x1 x2 x3 x5 x6)
          (fun p => val_main_v12 (F := Ideal) x6 (ix1 p)) (fun c => x4 (ix1 c)) p c := by
  rw [val_main_v53_apply, val_main_v50_apply, val_main_v49_apply, val_main_v48_apply, idx48_49_ix2,
    val_main_v52_apply, val_main_v51_apply, idx51_52_ix2]
  rfl

/-- The number subtracted from row p: the row's maximum folded from −∞, and −∞ once more. -/
theorem v56_ix1 (p : Fin 100000) :
    val_main_v56 (F := Ideal) x0 x1 x2 x3 x4 x5 x6 (ix1 p)
      = Gcn.rowTop (fun j => Gcn.affineAt (n := 100000) (d := 2) (val_main_v47 (F := Ideal) x0 x1 x2 x3 x5 x6)
          (fun p => val_main_v12 (F := Ideal) x6 (ix1 p)) (fun c => x4 (ix1 c)) p j) := by
  rw [val_main_v56_apply, val_main_v55_apply, val_main_cst_10_apply]
  unfold val_main_v54
  rw [RowOps.hostReduce_max_row (a := 100000) (b := 2) _ _ reducesTo_S100000x2_S100000_d1 (by decide) h_S_ p]
  simp only [v53_ix2]
  rfl

/-- The exponential of the shifted affine value, at (p, c). -/
theorem v60_ix2 (p : Fin 100000) (c : Fin 2) :
    val_main_v60 (F := Ideal) x0 x1 x2 x3 x4 x5 x6 (ix2 p c)
      = Ideal.exp (Gcn.affineAt (n := 100000) (d := 2) (val_main_v47 (F := Ideal) x0 x1 x2 x3 x5 x6)
            (fun p => val_main_v12 (F := Ideal) x6 (ix1 p)) (fun c => x4 (ix1 c)) p c
          - Gcn.rowTop (fun j => Gcn.affineAt (n := 100000) (d := 2) (val_main_v47 (F := Ideal) x0 x1 x2 x3 x5 x6)
              (fun p => val_main_v12 (F := Ideal) x6 (ix1 p)) (fun c => x4 (ix1 c)) p j)) := by
  rw [val_main_v60_apply, val_main_v59_apply, val_main_v58_apply, val_main_v57_apply, idx57_58_ix2, v56_ix1, v53_ix2,
    Ideal.hostUnary_exp_def, Ideal.subf_def]

/-- The first dense layer: the product with the first weight matrix, each row scaled by the source factor. -/
theorem stage_dense1 :
    val_main_v16 (F := Ideal) x0 x1 x5
      = Gcn.scaledDense (n := 100000) (k := 512) (d := 128) x0 x1 (fun p => val_main_v9 (F := Ideal) x5 (ix1 p)) := by
  funext i
  obtain ⟨p, c, rfl⟩ : ∃ (p : Fin 100000) (c : Fin 128), i = ix2 p c := ⟨i 0, i 1, eq_ix2 i⟩
  rw [val_main_v16_apply, val_main_v13_apply, val_main_v15_apply, val_main_v14_apply, idx14_15_ix2,
    Gcn.scaledDense_ix2]
  unfold Gcn.scaledDenseAt
  simp only [lidx13_ix2, ridx13_ix2]
  rfl

/-- The first layer's output: the aggregated messages scaled by the destination factor, plus the bias, rectified. -/
theorem stage_relu :
    val_main_v33 (F := Ideal) x0 x1 x2 x5 x6
      = Gcn.affineRelu (n := 100000) (d := 128) (val_main_v26 (F := Ideal) x0 x1 x5 x6)
          (fun p => val_main_v12 (F := Ideal) x6 (ix1 p)) (fun c => x2 (ix1 c)) := by
  funext i
  obtain ⟨p, c, rfl⟩ : ∃ (p : Fin 100000) (c : Fin 128), i = ix2 p c := ⟨i 0, i 1, eq_ix2 i⟩
  rw [val_main_v33_apply, val_main_v32_apply, val_main_v29_apply, val_main_v28_apply, val_main_v27_apply,
    idx27_28_ix2, val_main_v31_apply, val_main_v30_apply, idx30_31_ix2, val_main_call0_v0_apply,
    val_main_call0_cst_apply, Gcn.affineRelu_ix2]
  rfl

/-- The second dense layer: the product with the second weight matrix, each row scaled by the source factor. -/
theorem stage_dense2 :
    val_main_v37 (F := Ideal) x0 x1 x2 x3 x5 x6
      = Gcn.scaledDense (n := 100000) (k := 128) (d := 2) (val_main_v33 (F := Ideal) x0 x1 x2 x5 x6) x3
          (fun p => val_main_v9 (F := Ideal) x5 (ix1 p)) := by
  funext i
  obtain ⟨p, c, rfl⟩ : ∃ (p : Fin 100000) (c : Fin 2), i = ix2 p c := ⟨i 0, i 1, eq_ix2 i⟩
  rw [val_main_v37_apply, val_main_v34_apply, val_main_v36_apply, val_main_v35_apply, idx35_36_ix2,
    Gcn.scaledDense_ix2]
  unfold Gcn.scaledDenseAt
  simp only [lidx34_ix2, ridx34_ix2]
  rfl

/-- The result: the aggregated messages scaled by the destination factor, plus the bias, then each row's softmax. -/
theorem stage_softmax :
    val_main_v64 (F := Ideal) x0 x1 x2 x3 x4 x5 x6
      = Gcn.affineSoftmax (n := 100000) (d := 2) (val_main_v47 (F := Ideal) x0 x1 x2 x3 x5 x6)
          (fun p => val_main_v12 (F := Ideal) x6 (ix1 p)) (fun c => x4 (ix1 c)) := by
  funext i
  obtain ⟨p, c, rfl⟩ : ∃ (p : Fin 100000) (c : Fin 2), i = ix2 p c := ⟨i 0, i 1, eq_ix2 i⟩
  rw [val_main_v64_apply, val_main_v63_apply, val_main_v62_apply, idx62_63_ix2, val_main_v61_apply,
    val_main_cst_11_apply, Ideal.ofBits_def, Ideal.ofBits_zero_f32, zero_add, Ideal.hostDivf_def,
    Gcn.affineSoftmax_ix2]
  simp only [idx61_ix1, v60_ix2]
  unfold Gcn.affineSoftmaxAt Gcn.softmaxRow
  rfl

end Cert.ReferenceIdeal.RefValue

end
-- ==== Proof.Bridge.lean ====
/-
  The reference computes the same network.

  Stage by stage the reference's result is the row-wise functions of `Gcn` applied to one another through the same
  aggregation steps the kernel program applies: the two degree factors and the two aggregations are, on both sides,
  the same host operations of the same index arrays, so they are carried as they stand and never opened. What is
  left is to chain the four stage readings of the reference.
-/
import proofs.«109262_j43722767073362_1_alg».proof.Proof.RefStages
import proofs.«109262_j43722767073362_1_alg».proof.Proof.KernelValue

noncomputable section

namespace Cert.Proof.Bridge

open Idealize.ShloMosaic Idealize.ShloMosaic.ValueIdx
open Cert.ReferenceIdeal.Read Cert.KernelIdeal.KVal

variable (x0 : (⟨Cert.ReferenceIdeal.S100000x512, .f32⟩ : BufTy).Contents (Elt Ideal))
  (x1 : (⟨Cert.ReferenceIdeal.S512x128, .f32⟩ : BufTy).Contents (Elt Ideal))
  (x2 : (⟨Cert.ReferenceIdeal.S128, .f32⟩ : BufTy).Contents (Elt Ideal))
  (x3 : (⟨Cert.ReferenceIdeal.S128x2, .f32⟩ : BufTy).Contents (Elt Ideal))
  (x4 : (⟨Cert.ReferenceIdeal.S2, .f32⟩ : BufTy).Contents (Elt Ideal))
  (x5 : (⟨Cert.ReferenceIdeal.S1600000, .i32⟩ : BufTy).Contents (Elt Ideal))
  (x6 : (⟨Cert.ReferenceIdeal.S1600000, .i32⟩ : BufTy).Contents (Elt Ideal))

/-- The reference's source factor is the degree factor of the source indices: the same host operations. -/
theorem srcFactor_eq : val_main_v9 (F := Ideal) x5 = degNorm x5 := rfl

/-- The reference's destination factor is the degree factor of the destination indices. -/
theorem dstFactor_eq : val_main_v12 (F := Ideal) x6 = degNorm x6 := rfl

/-- The reference's first aggregation is the aggregation of its first dense stage. -/
theorem aggregated1_eq :
    val_main_v26 (F := Ideal) x0 x1 x5 x6 = aggregate128 (val_main_v16 (F := Ideal) x0 x1 x5) x5 x6 := rfl

/-- The reference's second aggregation is the aggregation of its second dense stage. -/
theorem aggregated2_eq :
    val_main_v47 (F := Ideal) x0 x1 x2 x3 x5 x6 = aggregate2 (val_main_v37 (F := Ideal) x0 x1 x2 x3 x5 x6) x5 x6 := rfl

/-- The reference's hidden features are the first layer of the network. -/
theorem hidden_eq : val_main_v33 (F := Ideal) x0 x1 x2 x5 x6 = hidden x0 x1 x2 x5 x6 := by
  rw [Cert.ReferenceIdeal.RefValue.stage_relu, aggregated1_eq, Cert.ReferenceIdeal.RefValue.stage_dense1, srcFactor_eq, dstFactor_eq]
  rfl

/-- THE REFERENCE'S RESULT is the network of its seven arguments. -/
theorem reference_eq : val_main_v64 (F := Ideal) x0 x1 x2 x3 x4 x5 x6 = network x0 x1 x2 x3 x4 x5 x6 := by
  rw [Cert.ReferenceIdeal.RefValue.stage_softmax, aggregated2_eq, Cert.ReferenceIdeal.RefValue.stage_dense2, hidden_eq, srcFactor_eq, dstFactor_eq]
  rfl

end Cert.Proof.Bridge

end
-- ==== Proof.lean ====
/-
  A two-layer graph convolution with a softmax head: the kernel program against its plain reference.

  Both programs compute, from node features x, two weight matrices and biases, and an edge list (src, dst):
    s = 1 / √ max(out-degree, 1),  t = 1 / √ max(in-degree, 1)            (per node)
    h = max (aggregate ((x · W₁) scaled by s along rows) scaled by t + b₁) 0
    out = softmax of each row of (aggregate ((h · W₂) scaled by s along rows) scaled by t + b₂)
  where the aggregation gathers the rows named by src and adds them into the rows named by dst. The kernel program
  runs the four dense stages as kernel regions over blocks of 2000 rows (the matrix products on operands narrowed to
  bf16, which changes nothing at the ideal values) and leaves the aggregation to the host; the reference runs
  everything as whole-array host operations. Over the extended reals the two results are the same term: each region's
  output array is the row-wise function of its inputs (Proof/Region0 … Region3, over Proof/Spec), the kernel
  program's boundary contents compose them through the shared aggregation (Proof/KernelValue), and the reference's
  stages are the same functions (Proof/RefStages, Proof/Bridge). No algebraic law beyond 0 + x = x is used, so the
  precondition is never opened: the frames hold for any input, and so does the equality.
-/
import proofs.«109262_j43722767073362_1_alg».proof.Defs
import proofs.«109262_j43722767073362_1_alg».proof.Proof.Gen.Kernel
import proofs.«109262_j43722767073362_1_alg».proof.Proof.Gen.Kernel.Frame
import proofs.«109262_j43722767073362_1_alg».proof.Proof.Gen.KernelIdeal
import proofs.«109262_j43722767073362_1_alg».proof.Proof.Gen.KernelIdeal.Frame
import proofs.«109262_j43722767073362_1_alg».proof.Proof.Gen.ReferenceIdeal
import proofs.«109262_j43722767073362_1_alg».proof.Proof.Gen.ReferenceIdeal.Run
import proofs.«109262_j43722767073362_1_alg».proof.Proof.Gen.ReferenceIdeal.Read
import proofs.«109262_j43722767073362_1_alg».proof.Proof.Gen.Pre_finite_inputs
import proofs.«109262_j43722767073362_1_alg».proof.Proof.KernelValue
import proofs.«109262_j43722767073362_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments alone. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- So does the reference: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with the network of the arguments in
    their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KVal.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.Proof.Bridge.reference_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
